-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S800000 : Shape := ⟨1, ![800000]⟩
abbrev S50000 : Shape := ⟨1, ![50000]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000 : S_.BroadcastsInDim S800000 (![] : Fin 0 → Fin S800000.rank)
  reducesTo_S800000_S_d0 : S800000.ReducesTo [0] S_
  bcast_S_S50000 : S_.BroadcastsInDim S50000 (![] : Fin 0 → Fin S50000.rank)
  reducesTo_S50000_S_d0 : S50000.ReducesTo [0] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg5 : FVec F S96 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  main_v23

def fn {F : FTy → Type} [FloatOps F] (main_arg0 : FVec F S50000x96 .f32) (main_arg1 : IVec S2x800000 32) (main_arg2 : FVec F S800000 .f32) (main_arg3 : FVec F S50000 .f32) (main_arg4 : FVec F S96x96 .f32) (main_arg5 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S50000 .f32 := Host.absf main_arg3
  let main_cst_2 : FVec F S_ .f32 := constant S_ .f32 0x7F800000#32
  let main_v10 : FVec F S50000 .f32 := broadcastInDim S50000 ![] bcast_S_S50000 main_cst_2
  let main_v11 : IVec S50000 1 := cmpf .olt main_v9 main_v10
  let main_c_3 : IVec S_ 1 := constantI S_ 1 1#1
  let main_v12 : IVec S_ 1 := (fun x v => Host.reduce IntOp.andi x v reducesTo_S50000_S_d0 h_S_) main_v11 main_c_3
  let main_v13 : IVec S_ 1 := andi main_v8 main_v12
  let main_v14 : FVec F S96x96 .f32 := Host.absf main_arg4
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg5 main_v13 main_v16
-- ==== Kernel.lean ====
abbrev S50000x96 : Shape := ⟨2, ![50000, 96]⟩
abbrev S2x800000 : Shape := ⟨2, ![2, 800000]⟩
abbrev S800000 : Shape := ⟨1, ![800000]⟩
abbrev S50000 : Shape := ⟨1, ![50000]⟩
abbrev S96x96 : Shape := ⟨2, ![96, 96]⟩
abbrev S96 : Shape := ⟨1, ![96]⟩
abbrev S1x800000 : Shape := ⟨2, ![1, 800000]⟩
abbrev S_ : Shape := ⟨0, ![]⟩
abbrev S800000x1 : Shape := ⟨2, ![800000, 1]⟩
abbrev S800000x96 : Shape := ⟨2, ![800000, 96]⟩
abbrev S10000x96 : Shape := ⟨2, ![10000, 96]⟩
abbrev S10000x1 : Shape := ⟨2, ![10000, 1]⟩
abbrev S1x96 : Shape := ⟨2, ![1, 96]⟩

abbrev nBuf : Space → Nat
  | .hbm => 38
  | .vmem => 14
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S800000, .f32⟩
  | .hbm, ⟨3, _⟩ => ⟨S50000, .f32⟩
  | .hbm, ⟨4, _⟩ => ⟨S96x96, .f32⟩
  | .hbm, ⟨5, _⟩ => ⟨S96, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x96, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000, .f32⟩
  | .hbm, ⟨28, _⟩ => ⟨S800000, .f32⟩
  | .hbm, ⟨29, _⟩ => ⟨S800000x1, .f32⟩
  | .hbm, ⟨30, _⟩ => ⟨S800000x96, .f32⟩
  | .hbm, ⟨31, _⟩ => ⟨S_, .f32⟩
  | .hbm, ⟨32, _⟩ => ⟨S50000x96, .f32⟩
  | .hbm, ⟨33, _⟩ => ⟨S800000x1, .i32⟩
  | .hbm, ⟨34, _⟩ => ⟨S50000x96, .f32⟩
  | .hbm, ⟨35, _⟩ => ⟨S96x96, .f32⟩
  | .hbm, ⟨36, _⟩ => ⟨S1x96, .f32⟩
  | .hbm, ⟨37, _⟩ => ⟨S50000x96, .f32⟩
  | .local _ .vmem, ⟨0, _⟩ => ⟨S10000x96, .f32⟩
  | .local _ .vmem, ⟨1, _⟩ => ⟨S10000x96, .f32⟩
  | .local _ .vmem, ⟨2, _⟩ => ⟨S10000x1, .f32⟩
  | .local _ .vmem, ⟨3, _⟩ => ⟨S10000x1, .f32⟩
  | .local _ .vmem, ⟨4, _⟩ => ⟨S10000x96, .f32⟩
  | .local _ .vmem, ⟨5, _⟩ => ⟨S10000x96, .f32⟩
  | .local _ .vmem, ⟨6, _⟩ => ⟨S10000x96, .f32⟩
  | .local _ .vmem, ⟨7, _⟩ => ⟨S10000x96, .f32⟩
  | .local _ .vmem, ⟨8, _⟩ => ⟨S10000x96, .f32⟩
  | .local _ .vmem, ⟨9, _⟩ => ⟨S10000x96, .f32⟩
  | .local _ .vmem, ⟨10, _⟩ => ⟨S96x96, .f32⟩
  | .local _ .vmem, ⟨11, _⟩ => ⟨S1x96, .f32⟩
  | .local _ .vmem, ⟨12, _⟩ => ⟨S10000x96, .f32⟩
  | .local _ .vmem, ⟨13, _⟩ => ⟨S10000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x96 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  shapeCasts_S800000_S800000x1 : S800000.ShapeCasts S800000x1
  inb_S10000x96_S10000x96_0_0 : ∀ a, (![0, 0] : Fin 2 → Nat) a + S10000x96.size a ≤ S10000x96.size a
  h_S10000x96 : 0 < S10000x96.numel
  shapeCasts_S10000x96_S10000x96 : S10000x96.ShapeCasts S10000x96
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x96 : S10000x1.Broadcasts S10000x96
  bcast_S_S50000x96 : S_.BroadcastsInDim S50000x96 (![] : Fin 0 → Fin S50000x96.rank)
  transposes_S96x96_S96x96_1_0 : S96x96.Transposes [1, 0] S96x96
  shapeCasts_S96_S1x96 : S96.ShapeCasts S1x96
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S10000x96 : S1x96.Broadcasts S10000x96
  gather_S50000x96_S800000x1_S800000x96_1_0_n_n_0_1_196_wf : GatherDims.WF S50000x96 S800000x1 S800000x96 [1] [0] [] [0] [] 1 ![1, 96]
  gather_S50000_S800000x1_S800000_n_0_n_n_0_1_1_wf : GatherDims.WF S50000 S800000x1 S800000 [] [0] [] [0] [] 1 ![1]
  scatter_S50000x96_S800000x1_S800000x96_1_0_0_1_wf : ScatterDims.WF S50000x96 S800000x1 S800000x96 [1] [0] [0] 1
  dot_S10000x96_S96x96_S10000x96_1_0_0_1_n_n_wf : DotDims.WF S10000x96 S96x96 S10000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x96.size a ≤ S800000x96.size a
  hwx0_0 : ∀ i : grid0.Coords, EltTy.bits .f32 = 32 ∨ (Rect.block (s := S800000x96) S10000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S800000x1.size a
  hwx0_1 : ∀ i : grid0.Coords, EltTy.bits .f32 = 32 ∨ (Rect.block (s := S800000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x96.size a ≤ S800000x96.size a
  hwx0_2 : ∀ i : grid0.Coords, EltTy.bits .f32 = 32 ∨ (Rect.block (s := S800000x96) S10000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x96.size a ≤ S50000x96.size a
  hwx1_0 : ∀ i : grid1.Coords, EltTy.bits .f32 = 32 ∨ (Rect.block (s := S50000x96) S10000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x96.size a ≤ S50000x96.size a
  hwx1_1 : ∀ i : grid1.Coords, EltTy.bits .f32 = 32 ∨ (Rect.block (s := S50000x96) S10000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x96.size a ≤ S50000x96.size a
  hwx1_4 : ∀ i : grid1.Coords, EltTy.bits .f32 = 32 ∨ (Rect.block (s := S50000x96) S10000x96.size (cc1_transform_4 i) (hinb1_4 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S10000x96_S96x96_S10000x96_1_0_0_1_n_n : DotDims S10000x96 S96x96 S10000x96 where
  lhsContracting := [1]
  rhsContracting := [0]
  lhsNonContracting := [0]
  rhsNonContracting := [1]
  lhsBatch := []
  rhsBatch := []
  wf := dot_S10000x96_S96x96_S10000x96_1_0_0_1_n_n_wf

abbrev win0_0 : Pipeline.Window sig grid0 :=
  Pipeline.Window.ofSpec (Memref.whole main_v10) S10000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S10000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S10000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S10000x96.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S800000 : Shape := ⟨1, ![800000]⟩
abbrev S50000 : Shape := ⟨1, ![50000]⟩
abbrev S96x96 : Shape := ⟨2, ![96, 96]⟩
abbrev S96 : Shape := ⟨1, ![96]⟩
abbrev S1x800000 : Shape := ⟨2, ![1, 800000]⟩
abbrev S800000x1 : Shape := ⟨2, ![800000, 1]⟩
abbrev S_ : Shape := ⟨0, ![]⟩
abbrev S800000x96 : Shape := ⟨2, ![800000, 96]⟩
abbrev S1x96 : Shape := ⟨2, ![1, 96]⟩

abbrev nBuf : Space → Nat
  | .hbm => 44
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S800000, .f32⟩
  | .hbm, ⟨3, _⟩ => ⟨S50000, .f32⟩
  | .hbm, ⟨4, _⟩ => ⟨S96x96, .f32⟩
  | .hbm, ⟨5, _⟩ => ⟨S96, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x96, .f32⟩
  | .hbm, ⟨20, _⟩ => ⟨S800000x96, .f32⟩
  | .hbm, ⟨21, _⟩ => ⟨S800000x96, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S800000x1, .f32⟩
  | .hbm, ⟨32, _⟩ => ⟨S800000x96, .f32⟩
  | .hbm, ⟨33, _⟩ => ⟨S800000x96, .f32⟩
  | .hbm, ⟨34, _⟩ => ⟨S_, .f32⟩
  | .hbm, ⟨35, _⟩ => ⟨S50000x96, .f32⟩
  | .hbm, ⟨36, _⟩ => ⟨S800000x1, .i32⟩
  | .hbm, ⟨37, _⟩ => ⟨S50000x96, .f32⟩
  | .hbm, ⟨38, _⟩ => ⟨S50000x96, .f32⟩
  | .hbm, ⟨39, _⟩ => ⟨S96x96, .f32⟩
  | .hbm, ⟨40, _⟩ => ⟨S50000x96, .f32⟩
  | .hbm, ⟨41, _⟩ => ⟨S1x96, .f32⟩
  | .hbm, ⟨42, _⟩ => ⟨S50000x96, .f32⟩
  | .hbm, ⟨43, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  transposes_S96x96_S96x96_1_0 : S96x96.Transposes [1, 0] S96x96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  gather_S50000x96_S800000x1_S800000x96_1_0_n_n_0_1_196_wf : GatherDims.WF S50000x96 S800000x1 S800000x96 [1] [0] [] [0] [] 1 ![1, 96]
  gather_S50000_S800000x1_S800000_n_0_n_n_0_1_1_wf : GatherDims.WF S50000 S800000x1 S800000 [] [0] [] [0] [] 1 ![1]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf

class Facts : Prop extends Facts₀ where

variable [Facts]
-- ==== Proof.Spec.lean ====
/-
  The two array functions the kernel's regions compute, over literal shapes and on the extended reals.
  `scaled`: every entry of an 800000 × 96 array times the entry of its row in an 800000 × 1 column.
  `affine`: an entry `(i, j)` of the 50000 × 96 result is row `i` of the sum of two arrays against column `j` of a
  96 × 96 matrix, plus entry `j` of a 1 × 96 row.  Nothing here names a program.
-/
import Idealize.ShloMosaic.PureOps.Ideal
import Idealize.ShloMosaic.Lib.ValueIdx

noncomputable section

open scoped BigOperators

namespace Cert.Spec

open Idealize.ShloMosaic Idealize.ShloMosaic.ValueIdx

/-- Each feature times its row's scale. -/
def scaled (xs : FVec Ideal ⟨2, ![800000, 96]⟩ .f32) (sc : FVec Ideal ⟨2, ![800000, 1]⟩ .f32) : FVec Ideal ⟨2, ![800000, 96]⟩ .f32 :=
  fun i => xs i * sc (ix2 (i 0) (0 : Fin 1))

/-- Row `i` of `a + x` against column `j` of `w`, plus the bias of column `j`. -/
def affine (a x : FVec Ideal ⟨2, ![50000, 96]⟩ .f32) (w : FVec Ideal ⟨2, ![96, 96]⟩ .f32) (b : FVec Ideal ⟨2, ![1, 96]⟩ .f32) :
    FVec Ideal ⟨2, ![50000, 96]⟩ .f32 :=
  fun i => (∑ k : Fin 96, (a (ix2 (i 0) k) + x (ix2 (i 0) k)) * w (ix2 k (i 1))) + b (ix2 (0 : Fin 1) (i 1))

end Cert.Spec

end
-- ==== Proof.MessageRegion.lean ====
/-
  The first kernel region.  Its grid has 80 points; point `t` takes rows `10000 t … 10000 t + 9999` of the gathered
  feature array (800000 × 96) and of the per-edge scale column (800000 × 1), multiplies each feature row by its edge's
  scale, and writes the product back to the same rows of the message array.  The 80 row blocks tile the message array,
  so after the region the whole array is one function of the two arrays the region found: entry `(e, d)` is the
  feature `(e, d)` times the scale `(e, 0)`.
-/
import proofs.«112134_j35545149341818_1_alg».proof.Proof.Gen.KernelIdeal.Frame
import proofs.«112134_j35545149341818_1_alg».proof.Proof.Spec
import Idealize.ShloMosaic.Lib.Pipeline.Value
import Idealize.ShloMosaic.Lib.ValueIdx

set_option maxRecDepth 16384

noncomputable section

namespace Cert.KernelIdeal.Messages

open Cert.KernelIdeal Cert.KernelIdeal.Gen
open Idealize.ShloMosaic Idealize.ShloMosaic.TcCoe Idealize.ShloMosaic.ValueIdx Idealize.SL.Sem Cert.Spec

variable (V : (c : Dev nD) → (b : Ref sig .tc) → Buf (Elt Ideal) ((c : Thread nD τ).loc b))

theorem origin2 : (![0, 0] : Fin 2 → Nat) = fun _ => 0 := funext fun a => by fin_cases a <;> rfl

/-- The gathered features and the scale column as the region finds them, at their literal types. -/
abbrev feats (c : Dev nD) : FVec Ideal S800000x96 .f32 := V c main_v10
abbrev scales (c : Dev nD) : FVec Ideal S800000x1 .f32 := V c main_v19

/-- One block's product at row `r`, column `d`: the block's feature there times the scale of row `r` (the scale
    column is broadcast along the 96 columns). -/
theorem block_entry (x0 : Vec Ideal S10000x96 .f32) (x1 : Vec Ideal S10000x1 .f32) (r : Fin 10000) (d : Fin 96) :
    k0_pay1 x0 x1 (ix2 r d) = x0 (ix2 r d) * x1 (ix2 r (0 : Fin 1)) := by
  unfold k0_pay1
  rw [mulf_apply, shapeCast_self, shapeCast_self]
  refine congrArg (x0 (ix2 r d) * ·) ?_
  refine broadcastTo_apply _ _ _ (ix2 r (0 : Fin 1)) fun a => ?_
  match a with
  | ⟨0, _⟩ => rfl
  | ⟨1, _⟩ => rfl

/-- The three windows' index maps over the 80 points: block `(t, 0)` each. -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `scaled` of the two arrays as the region finds them. -/
theorem flushed_eq (c : Dev nD) (t : Fin cfg0.N) :
    (dat0 V c).flushed 2 t = ((cfg0.win 2).blk t).view.read (Elt Ideal) (scaled (feats V c) (scales V c)) := by
  show (cfg0.win 2).cut (grid0.coords t) ((dat0 V c).after 2 t) = _
  rw [after0_2]
  unfold out0_2
  rw [View.canon_unit_zero origin2]
  simp only [View.ld_unit_zero (S := S10000x96) origin2, View.ld_unit_zero (S := S10000x1) origin2]
  obtain ⟨e0, e1, e2, e3, e4, e5⟩ := index_facts t
  funext j
  show k0_pay1 (iblk0 V c 0 t) (iblk0 V c 1 t) (ix2 (j 0) (j 1)) = scaled (feats V c) (scales V c) (((cfg0.win 2).blk t).view.emb j)
  refine (block_entry (iblk0 V c 0 t) (iblk0 V c 1 t) (j 0) (j 1)).trans ?_
  show feats V c (((cfg0.win 0).blk t).view.emb (ix2 (j 0) (j 1))) * scales V c (((cfg0.win 1).blk t).view.emb (ix2 (j 0) (0 : Fin 1)))
    = feats V c (((cfg0.win 2).blk t).view.emb j) * scales V c (ix2 ((((cfg0.win 2).blk t).view.emb j) 0) (0 : Fin 1))
  have h0 : ((cfg0.win 0).blk t).view.emb (ix2 (j 0) (j 1)) = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 96 + 1 * (j 1).val = win0_2.index t (1 : Fin 2) * 96 + 1 * (j 1).val; omega
  have h1 : ((cfg0.win 1).blk t).view.emb (ix2 (j 0) (0 : Fin 1)) = ix2 ((((cfg0.win 2).blk t).view.emb j) 0) (0 : Fin 1) := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 1 + 1 * 0 = 0; omega
  rw [h0, h1]
  rfl

/-- An index of the message array is in point `t`'s block iff each coordinate is in the block's range on its axis. -/
theorem mem_block (t : Fin cfg0.N) (i : S800000x96.Idx) :
    i ∈ ((cfg0.win 2).blk t).view.set ↔ ∀ a : Fin 2, win0_2.index t a * S10000x96.size a ≤ (i a).val ∧ (i a).val < win0_2.index t a * S10000x96.size a + S10000x96.size a := by
  show i ∈ ((View.whole main_v20).slice (win0_2.rect t)).set ↔ _
  rw [View.set_slice_whole, Rect.mem_set_unit]
  exact Iff.rfl

/-- Every entry of the message array lies in some point's block: row `e` in the block of point `e / 10000`. -/
theorem covered (i : S800000x96.Idx) : ∃ t : Fin cfg0.N, (cfg0.win 2).flush t = true ∧ i ∈ ((cfg0.win 2).blk t).view.set := by
  have hi0 : (i 0).val < 800000 := (i 0).isLt
  have hi1 : (i 1).val < 96 := (i 1).isLt
  obtain ⟨t, ht⟩ : ∃ t : Fin cfg0.N, t.val = (i 0).val / 10000 := ⟨⟨(i 0).val / 10000, by rw [show cfg0.N = 80 from N_0]; omega⟩, rfl⟩
  obtain ⟨-, -, -, -, e4, e5⟩ := index_facts t
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 96 ≤ (i 1).val ∧ (i 1).val < win0_2.index t (1 : Fin 2) * 96 + 96; omega

/-- After the region the message array holds `scaled` of the gathered features and the scale column. -/
theorem messages (c : Dev nD) : (dat0 V c).arrAt 2 cfg0.N = scaled (feats V c) (scales V c) :=
  (dat0 V c).arrAt_eq_of_cover 2 _ (fun t _ => flushed_eq V c t) covered

end Cert.KernelIdeal.Messages

end
-- ==== Proof.LibPlainMatmul.lean ====
/-
  A plain matrix product read at an entry.  For the dimension numbers of an `M × K` by `K × N` product
  (`DotDims.plain`: the left operand contracted on its columns, the right on its rows, no batch axis), a
  `tpu.matmul` into the zero splat is, at the extended reals and at row `r`, column `c`, the sum over
  `k : Fin K` of the left operand at `(r, k)` times the right at `(k, c)`.  Nothing here names a program.
-/
import Idealize.ShloMosaic.PureOps.Ideal.Laws
import Idealize.ShloMosaic.Lib.ValueIdx

namespace Cert.PlainMatmul

open Idealize.ShloMosaic Idealize.ShloMosaic.ValueIdx

/-- The left operand's index of a plain product at output `(r, c)` and contraction coordinate `k` is `(r, k)`. -/
theorem lhsIdx_plain {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r c) _).trans hk

/-- The right operand's index there is `(k, c)`. -/
theorem rhsIdx_plain {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 r c) _).trans hk
  | ⟨1, _⟩ => rfl

/-- A plain `tpu.matmul` into zeros, at entry `(r, c)`, is `∑ k, a (r, k) * b (k, c)` on the extended reals. -/
theorem matmul_plain_zero_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    matmul (DotDims.plain M K N) prec a b (constant ⟨2, ![M, N]⟩ .f32 0x00000000#32) (ix2 r c)
      = ∑ k : Fin K, a (ix2 r k) * b (ix2 k c) := by
  show FloatOps.matmul (DotDims.plain M K N) prec a b (constant ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.PlainMatmul
-- ==== Proof.UpdateRegion.lean ====
/-
  The second kernel region.  Its grid has 5 points; point `t` takes rows `10000 t … 10000 t + 9999` of the aggregated
  array and of the node features (both 50000 × 96), the whole 96 × 96 matrix and the whole 1 × 96 bias row, adds the two
  row blocks, multiplies the sum by the matrix (the two narrowings to the short float format change nothing on the
  extended reals, and the accumulator starts at zero), adds the bias row to every row, and writes the result back to
  the same rows of the result array.  The 5 row blocks tile the result array, so after the region the whole array is
  one function of the four arrays the region found: entry `(i, j)` is
  `∑ k, (a (i, k) + x (i, k)) * w (k, j) + b (0, j)`.
-/
import proofs.«112134_j35545149341818_1_alg».proof.Proof.Gen.KernelIdeal.Frame
import proofs.«112134_j35545149341818_1_alg».proof.Proof.LibPlainMatmul
import proofs.«112134_j35545149341818_1_alg».proof.Proof.Spec
import Idealize.ShloMosaic.Lib.Pipeline.Value
import Idealize.ShloMosaic.Lib.ValueIdx

set_option maxRecDepth 16384

noncomputable section

open scoped BigOperators

namespace Cert.KernelIdeal.Update

open Cert.KernelIdeal Cert.KernelIdeal.Gen
open Idealize.ShloMosaic Idealize.ShloMosaic.TcCoe Idealize.ShloMosaic.ValueIdx Idealize.SL.Sem Cert.Spec

variable (V : (c : Dev nD) → (b : Ref sig .tc) → Buf (Elt Ideal) ((c : Thread nD τ).loc b))

theorem origin2 : (![0, 0] : Fin 2 → Nat) = fun _ => 0 := funext fun a => by fin_cases a <;> rfl

/-- The four arrays as the region finds them, at their literal types. -/
abbrev aggr (c : Dev nD) : FVec Ideal S50000x96 .f32 := V c main_v23
abbrev nodes (c : Dev nD) : FVec Ideal S50000x96 .f32 := V c main_arg0
abbrev weights (c : Dev nD) : FVec Ideal S96x96 .f32 := V c main_v24
abbrev bias (c : Dev nD) : FVec Ideal S1x96 .f32 := V c main_v25

/-- One block's result at row `r`, column `d`. -/
theorem block_entry (x0 x1 : Vec Ideal S10000x96 .f32) (x2 : Vec Ideal S96x96 .f32) (x3 : Vec Ideal S1x96 .f32) (r : Fin 10000) (d : Fin 96) :
    k1_pay1 x0 x1 x2 x3 (ix2 r d) = (∑ k : Fin 96, (x0 (ix2 r k) + x1 (ix2 r k)) * x2 (ix2 k d)) + x3 (ix2 (0 : Fin 1) d) := by
  unfold k1_pay1
  rw [addf_apply]
  refine congrArg₂ (· + ·) ?_ ?_
  · refine (Cert.PlainMatmul.matmul_plain_zero_apply _ _ none r d).trans ?_
    refine Finset.sum_congr rfl fun k _ => ?_
    rw [truncf_apply, truncf_apply, addf_apply, shapeCast_self, shapeCast_self]
  · rw [shapeCast_self]
    refine broadcastTo_apply _ _ _ (ix2 (0 : Fin 1) d) fun a => ?_
    match a with
    | ⟨0, _⟩ => rfl
    | ⟨1, _⟩ => rfl

/-- The five windows' index maps over the 5 points: block `(t, 0)` for the three row-tiled arrays, block `(0, 0)` for
    the matrix and the bias row. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of `affine` of the four arrays as the region finds them. -/
theorem flushed_eq (c : Dev nD) (t : Fin cfg1.N) :
    (dat1 V c).flushed 4 t = ((cfg1.win 4).blk t).view.read (Elt Ideal) (affine (aggr V c) (nodes V c) (weights V c) (bias V c)) := by
  show (cfg1.win 4).cut (grid1.coords t) ((dat1 V c).after 4 t) = _
  rw [after1_4]
  unfold out1_4
  rw [View.canon_unit_zero origin2]
  simp only [View.ld_unit_zero (S := S10000x96) origin2, View.ld_unit_zero (S := S96x96) origin2, View.ld_unit_zero (S := S1x96) origin2]
  obtain ⟨e0, e1, e2, e3, e4, e5, e6, e7, e8, e9⟩ := index_facts t
  funext j
  show k1_pay1 (iblk1 V c 0 t) (iblk1 V c 1 t) (iblk1 V c 2 t) (iblk1 V c 3 t) ((cfg1.win 4).xinj (grid1.coords t) j)
    = affine (aggr V c) (nodes V c) (weights V c) (bias V c) (((cfg1.win 4).blk t).view.emb j)
  obtain ⟨r, hr⟩ : ∃ r : Fin 10000, r.val = (j 0).val := ⟨⟨(j 0).val, (j 0).isLt⟩, rfl⟩
  obtain ⟨d, hd⟩ : ∃ d : Fin 96, d.val = (j 1).val := ⟨⟨(j 1).val, (j 1).isLt⟩, rfl⟩
  have hj : (cfg1.win 4).xinj (grid1.coords t) j = ix2 r d := by
    funext a; apply Fin.ext
    match a with
    | ⟨0, _⟩ => exact hr.symm
    | ⟨1, _⟩ => exact hd.symm
  refine (congrArg (k1_pay1 (iblk1 V c 0 t) (iblk1 V c 1 t) (iblk1 V c 2 t) (iblk1 V c 3 t)) hj).trans ?_
  refine (block_entry (iblk1 V c 0 t) (iblk1 V c 1 t) (iblk1 V c 2 t) (iblk1 V c 3 t) r d).trans ?_
  have hrow (k : Fin 96) : ((cfg1.win 0).blk t).view.emb (ix2 r k) = ix2 ((((cfg1.win 4).blk t).view.emb j) 0) k := by
    funext a; apply Fin.ext
    match a with
    | ⟨0, _⟩ => show win1_0.index t (0 : Fin 2) * 10000 + 1 * r.val = win1_4.index t (0 : Fin 2) * 10000 + 1 * (j 0).val; omega
    | ⟨1, _⟩ => show win1_0.index t (1 : Fin 2) * 96 + 1 * k.val = k.val; omega
  have hrow' (k : Fin 96) : ((cfg1.win 1).blk t).view.emb (ix2 r k) = ix2 ((((cfg1.win 4).blk t).view.emb j) 0) k := by
    funext a; apply Fin.ext
    match a with
    | ⟨0, _⟩ => show win1_1.index t (0 : Fin 2) * 10000 + 1 * r.val = win1_4.index t (0 : Fin 2) * 10000 + 1 * (j 0).val; omega
    | ⟨1, _⟩ => show win1_1.index t (1 : Fin 2) * 96 + 1 * k.val = k.val; omega
  have hcol (k : Fin 96) : ((cfg1.win 2).blk t).view.emb (ix2 k d) = ix2 k ((((cfg1.win 4).blk t).view.emb j) 1) := by
    funext a; apply Fin.ext
    match a with
    | ⟨0, _⟩ => show win1_2.index t (0 : Fin 2) * 96 + 1 * k.val = k.val; omega
    | ⟨1, _⟩ => show win1_2.index t (1 : Fin 2) * 96 + 1 * d.val = win1_4.index t (1 : Fin 2) * 96 + 1 * (j 1).val; omega
  have hbias : ((cfg1.win 3).blk t).view.emb (ix2 (0 : Fin 1) d) = ix2 (0 : Fin 1) ((((cfg1.win 4).blk t).view.emb j) 1) := by
    funext a; apply Fin.ext
    match a with
    | ⟨0, _⟩ => show win1_3.index t (0 : Fin 2) * 1 + 1 * 0 = 0; omega
    | ⟨1, _⟩ => show win1_3.index t (1 : Fin 2) * 96 + 1 * d.val = win1_4.index t (1 : Fin 2) * 96 + 1 * (j 1).val; omega
  show (∑ k : Fin 96, (aggr V c (((cfg1.win 0).blk t).view.emb (ix2 r k)) + nodes V c (((cfg1.win 1).blk t).view.emb (ix2 r k)))
        * weights V c (((cfg1.win 2).blk t).view.emb (ix2 k d))) + bias V c (((cfg1.win 3).blk t).view.emb (ix2 (0 : Fin 1) d))
    = (∑ k : Fin 96, (aggr V c (ix2 ((((cfg1.win 4).blk t).view.emb j) 0) k) + nodes V c (ix2 ((((cfg1.win 4).blk t).view.emb j) 0) k))
        * weights V c (ix2 k ((((cfg1.win 4).blk t).view.emb j) 1))) + bias V c (ix2 (0 : Fin 1) ((((cfg1.win 4).blk t).view.emb j) 1))
  rw [hbias]
  refine congrArg (· + _) (Finset.sum_congr rfl fun k _ => ?_)
  rw [hrow k, hrow' k, hcol k]
  rfl

/-- An index of the result array is in point `t`'s block iff each coordinate is in the block's range on its axis. -/
theorem mem_block (t : Fin cfg1.N) (i : S50000x96.Idx) :
    i ∈ ((cfg1.win 4).blk t).view.set ↔ ∀ a : Fin 2, win1_4.index t a * S10000x96.size a ≤ (i a).val ∧ (i a).val < win1_4.index t a * S10000x96.size a + S10000x96.size a := by
  show i ∈ ((View.whole main_v26).slice (win1_4.rect t)).set ↔ _
  rw [View.set_slice_whole, Rect.mem_set_unit]
  exact Iff.rfl

/-- Every entry of the result array lies in some point's block: row `i` in the block of point `i / 10000`. -/
theorem covered (i : S50000x96.Idx) : ∃ t : Fin cfg1.N, (cfg1.win 4).flush t = true ∧ i ∈ ((cfg1.win 4).blk t).view.set := by
  have hi0 : (i 0).val < 50000 := (i 0).isLt
  have hi1 : (i 1).val < 96 := (i 1).isLt
  obtain ⟨t, ht⟩ : ∃ t : Fin cfg1.N, t.val = (i 0).val / 10000 := ⟨⟨(i 0).val / 10000, by rw [show cfg1.N = 5 from N_1]; omega⟩, rfl⟩
  obtain ⟨-, -, -, -, -, -, -, -, e8, e9⟩ := index_facts t
  refine ⟨t, flush1_4 t, ?_⟩
  rw [mem_block]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 96 ≤ (i 1).val ∧ (i 1).val < win1_4.index t (1 : Fin 2) * 96 + 96; omega

/-- After the region the result array holds `affine` of the four arrays the region found. -/
theorem result (c : Dev nD) : (dat1 V c).arrAt 4 cfg1.N = affine (aggr V c) (nodes V c) (weights V c) (bias V c) :=
  (dat1 V c).arrAt_eq_of_cover 4 _ (fun t _ => flushed_eq V c t) covered

end Cert.KernelIdeal.Update

end
-- ==== Proof.RefTerm.lean ====
/-
  The reference's stages as functions of its argument arrays, on the extended reals.
  From the 2 × 800000 edge index: row 0 holds each edge's source node, row 1 its destination.  A negative source is
  moved up by the node count 50000 before it is used as a row number.  Every edge gathers its source's 96 features and
  its source's rank; its message is (edge weight × feature) × rank, the two length-800000 vectors spread along the 96
  columns; the messages are summed into their destination rows, starting from zeros; the node features are added, the sum
  is multiplied by the transposed 96 × 96 matrix, and the length-96 bias is added to every row.
-/
import proofs.«112134_j35545149341818_1_alg».proof.ReferenceIdeal
import proofs.«112134_j35545149341818_1_alg».proof.Proof.Gen.ReferenceIdeal
import Idealize.ShloMosaic.PureOps.Ideal

noncomputable section

namespace Cert.ReferenceIdeal.Term

open Cert.ReferenceIdeal Cert.ReferenceIdeal.Gen Idealize.ShloMosaic

/-- Row 0 of the edge index: each edge's source node. -/
def sources (ei : IVec S2x800000 32) : IVec S800000 32 :=
  shapeCast _ (extractStridedSlice S1x800000 ![0, 0] ei slices_S2x800000_S1x800000_0_0) shapeCasts_S1x800000_S800000

/-- Row 1 of the edge index: each edge's destination node. -/
def destinations (ei : IVec S2x800000 32) : IVec S800000 32 :=
  shapeCast _ (extractStridedSlice S1x800000 ![1, 0] ei slices_S2x800000_S1x800000_1_0) shapeCasts_S1x800000_S800000

/-- A negative node number counts from the end: 50000 is added to it. -/
def wrapped (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- A length-800000 vector as an 800000 × 1 column. -/
def column {α : Type} (v : S800000.Idx → α) : S800000x1.Idx → α :=
  broadcastInDim S800000x1 ![0] bcast_S800000_S800000x1_0 v

/-- A length-800000 vector spread along the 96 columns. -/
def wide {α : Type} (v : S800000.Idx → α) : S800000x96.Idx → α :=
  broadcastInDim S800000x96 ![0, 1] bcast_S800000x1_S800000x96_0_1 (column v)

/-- Each edge's source's feature row. -/
def sourceRows (x : FVec Ideal S50000x96 .f32) (ei : IVec S2x800000 32) : FVec Ideal S800000x96 .f32 :=
  Host.gather gather_S50000x96_S800000x1_S800000x96_1_0_n_n_0_1_196 x (column (wrapped (sources ei)))

/-- Each edge's source's rank. -/
def sourceRanks (pr : FVec Ideal S50000 .f32) (ei : IVec S2x800000 32) : FVec Ideal S800000 .f32 :=
  Host.gather gather_S50000_S800000x1_S800000_n_0_n_n_0_1_1 pr (column (wrapped (sources ei)))

/-- Per-edge rows summed into their destination rows, from zeros. -/
def summed (msgs : FVec Ideal S800000x96 .f32) (ei : IVec S2x800000 32) : FVec Ideal S50000x96 .f32 :=
  Host.scatterAdd (F := Ideal) scatter_S50000x96_S800000x1_S800000x96_1_0_0_1
    (broadcastInDim S50000x96 ![] bcast_S_S50000x96 (constant (F := Ideal) S_ .f32 0x00000000#32)) (column (destinations ei)) msgs

/-- The messages: (edge weight × feature) × rank. -/
def messages (x : FVec Ideal S50000x96 .f32) (ei : IVec S2x800000 32) (ew : FVec Ideal S800000 .f32) (pr : FVec Ideal S50000 .f32) :
    FVec Ideal S800000x96 .f32 :=
  mulf (mulf (wide ew) (sourceRows x ei)) (wide (sourceRanks pr ei))

/-- The reference's result. -/
def result (x : FVec Ideal S50000x96 .f32) (ei : IVec S2x800000 32) (ew : FVec Ideal S800000 .f32) (pr : FVec Ideal S50000 .f32)
    (W : FVec Ideal S96x96 .f32) (b : FVec Ideal S96 .f32) : FVec Ideal S50000x96 .f32 :=
  addf (Host.dotGeneral (F := Ideal) dot_S50000x96_S96x96_S50000x96_1_0_0_1_n_n none (addf (summed (messages x ei ew pr) ei) x)
      (transpose S96x96 [1, 0] W transposes_S96x96_S96x96_1_0))
    (broadcastInDim S50000x96 ![0, 1] bcast_S1x96_S50000x96_0_1 (broadcastInDim S1x96 ![1] bcast_S96_S1x96_1 b))

end Cert.ReferenceIdeal.Term

end
-- ==== Proof.Algebra.lean ====
/-
  The two laws that join the kernel's arrangement to the reference's, on the extended reals.
  Messages: the kernel scales a feature by the product (edge weight × source rank); the reference multiplies the edge
  weight by the feature first and by the source rank after.  Multiplication of extended reals is commutative and
  associative, so the two agree entry by entry, infinities included.
  Update: a 50000 × 96 by 96 × 96 product read at an entry is the sum over the 96 contraction coordinates, which is the
  row sum `affine` states; a length-96 vector reshaped to a 1 × 96 row, and the same vector broadcast to a row and then
  down the 50000 rows, both read entry `j` at column `j`.
-/
import proofs.«112134_j35545149341818_1_alg».proof.Proof.Spec
import proofs.«112134_j35545149341818_1_alg».proof.Proof.LibPlainMatmul
import Idealize.ShloMosaic.PureOps.Ideal.Laws
import Idealize.ShloMosaic.Lib.Pipeline.Value
import Idealize.ShloMosaic.Lib.ValueIdx

noncomputable section

open scoped BigOperators

namespace Cert.Algebra

open Idealize.ShloMosaic Idealize.ShloMosaic.ValueIdx Cert.Spec

/-- The scaled features are the reference's two successive products. -/
theorem scaled_eq_products (xs : FVec Ideal ⟨2, ![800000, 96]⟩ .f32) (ew ps : FVec Ideal ⟨1, ![800000]⟩ .f32)
    (hsc : (⟨1, ![800000]⟩ : Shape).ShapeCasts ⟨2, ![800000, 1]⟩)
    (hcol : (⟨1, ![800000]⟩ : Shape).BroadcastsInDim ⟨2, ![800000, 1]⟩ ![0])
    (hrow : (⟨2, ![800000, 1]⟩ : Shape).BroadcastsInDim ⟨2, ![800000, 96]⟩ ![0, 1]) :
    scaled xs (shapeCast ⟨2, ![800000, 1]⟩ (mulf ew ps) hsc)
      = mulf (mulf (broadcastInDim ⟨2, ![800000, 96]⟩ ![0, 1] hrow (broadcastInDim ⟨2, ![800000, 1]⟩ ![0] hcol ew)) xs)
          (broadcastInDim ⟨2, ![800000, 96]⟩ ![0, 1] hrow (broadcastInDim ⟨2, ![800000, 1]⟩ ![0] hcol ps)) := by
  funext i
  obtain ⟨e, d, rfl⟩ : ∃ (e : Fin 800000) (d : Fin 96), i = ix2 e d := ⟨i 0, i 1, eq_ix2 i⟩
  have hcast (v : FVec Ideal ⟨1, ![800000]⟩ .f32) : shapeCast ⟨2, ![800000, 1]⟩ v hsc (ix2 e (0 : Fin 1)) = v (ix1 e) :=
    shapeCast_apply v hsc (ix2 e (0 : Fin 1)) (ix1 e) (by
      rw [Shape.rowMajor_val_one, Shape.rowMajor_val_two]; show e.val = e.val * 1 + 0; omega)
  have hb (v : FVec Ideal ⟨1, ![800000]⟩ .f32) :
      broadcastInDim ⟨2, ![800000, 96]⟩ ![0, 1] hrow (broadcastInDim ⟨2, ![800000, 1]⟩ ![0] hcol v) (ix2 e d) = v (ix1 e) := by
    rw [broadcastInDim_apply ![0, 1] hrow _ (ix2 e d) (ix2 e (0 : Fin 1)) (fun a => by
      match a with
      | ⟨0, _⟩ => rfl
      | ⟨1, _⟩ => rfl)]
    exact broadcastInDim_apply ![0] hcol v (ix2 e (0 : Fin 1)) (ix1 e) (fun a => by
      match a with
      | ⟨0, _⟩ => rfl)
  show xs (ix2 e d) * shapeCast ⟨2, ![800000, 1]⟩ (mulf ew ps) hsc (ix2 e (0 : Fin 1)) = _
  rw [hcast, mulf_apply, mulf_apply, mulf_apply, hb, hb]
  rw [mul_comm (ew (ix1 e)) (xs (ix2 e d)), mul_assoc]

/-- The row sums plus the bias row are the reference's product plus its broadcast bias. -/
theorem affine_eq_dot (a x : FVec Ideal ⟨2, ![50000, 96]⟩ .f32) (w : FVec Ideal ⟨2, ![96, 96]⟩ .f32) (b : FVec Ideal ⟨1, ![96]⟩ .f32)
    (hsc : (⟨1, ![96]⟩ : Shape).ShapeCasts ⟨2, ![1, 96]⟩)
    (hb1 : (⟨1, ![96]⟩ : Shape).BroadcastsInDim ⟨2, ![1, 96]⟩ ![1])
    (hb2 : (⟨2, ![1, 96]⟩ : Shape).BroadcastsInDim ⟨2, ![50000, 96]⟩ ![0, 1]) :
    affine a x w (shapeCast ⟨2, ![1, 96]⟩ b hsc)
      = addf (Host.dotGeneral (DotDims.plain 50000 96 96) none (addf a x) w)
          (broadcastInDim ⟨2, ![50000, 96]⟩ ![0, 1] hb2 (broadcastInDim ⟨2, ![1, 96]⟩ ![1] hb1 b)) := by
  funext i
  obtain ⟨r, j, rfl⟩ : ∃ (r : Fin 50000) (j : Fin 96), i = ix2 r j := ⟨i 0, i 1, eq_ix2 i⟩
  rw [addf_apply]
  show (∑ k : Fin 96, (a (ix2 r k) + x (ix2 r k)) * w (ix2 k j)) + shapeCast ⟨2, ![1, 96]⟩ b hsc (ix2 (0 : Fin 1) j) = _
  refine congrArg₂ (· + ·) ?_ ?_
  · show _ = FloatOps.dotGeneral (DotDims.plain 50000 96 96) none .single (addf a x) w (ix2 r j)
    rw [Ideal.dotGeneral_apply, ← Equiv.sum_comp (contrEquiv1 (DotDims.plain 50000 96 96) 96 rfl rfl).symm]
    refine Finset.sum_congr rfl fun k _ => ?_
    rw [Cert.PlainMatmul.lhsIdx_plain, Cert.PlainMatmul.rhsIdx_plain, addf_apply]
  · rw [shapeCast_apply b hsc (ix2 (0 : Fin 1) j) (ix1 j) (by
      rw [Shape.rowMajor_val_one, Shape.rowMajor_val_two]; show j.val = 0 * 96 + j.val; omega)]
    rw [broadcastInDim_apply ![0, 1] hb2 _ (ix2 r j) (ix2 (0 : Fin 1) j) (fun a => by
      match a with
      | ⟨0, _⟩ => rfl
      | ⟨1, _⟩ => rfl)]
    exact (broadcastInDim_apply ![1] hb1 b (ix2 (0 : Fin 1) j) (ix1 j) (fun a => by
      match a with
      | ⟨0, _⟩ => rfl)).symm

end Cert.Algebra

end
-- ==== Proof.RefAffine.lean ====
/-
  The reference's result in the kernel's arrangement.  By the two laws of the extended reals proved beside this file,
  the reference's (edge weight × feature) × rank is the feature scaled by (edge weight × rank) as an 800000 × 1 column, and
  its product with the transposed matrix plus the broadcast bias is the row-sum form with the bias as a 1 × 96 row.  The
  two reshapes are the kernel's (a length-800000 vector as a column, a length-96 vector as a row); they are taken as
  hypotheses here, since the reference states no such fact of its own.
-/
import proofs.«112134_j35545149341818_1_alg».proof.Proof.RefTerm
import proofs.«112134_j35545149341818_1_alg».proof.Proof.Algebra

noncomputable section

namespace Cert.ReferenceIdeal.Term

open Cert.ReferenceIdeal Cert.ReferenceIdeal.Gen Idealize.ShloMosaic Cert.Spec

theorem result_eq_affine (x : FVec Ideal S50000x96 .f32) (ei : IVec S2x800000 32) (ew : FVec Ideal S800000 .f32) (pr : FVec Ideal S50000 .f32)
    (W : FVec Ideal S96x96 .f32) (b : FVec Ideal S96 .f32) (hcol : S800000.ShapeCasts S800000x1) (hrow : S96.ShapeCasts S1x96) :
    result x ei ew pr W b
      = affine (summed (scaled (sourceRows x ei) (shapeCast S800000x1 (mulf ew (sourceRanks pr ei)) hcol)) ei) x
          (transpose S96x96 [1, 0] W transposes_S96x96_S96x96_1_0) (shapeCast S1x96 b hrow) := by
  rw [Cert.Algebra.affine_eq_dot _ _ _ _ hrow bcast_S96_S1x96_1 bcast_S1x96_S50000x96_0_1,
    Cert.Algebra.scaled_eq_products _ _ _ hcol bcast_S800000_S800000x1_0 bcast_S800000x1_S800000x96_0_1]
  rfl

end Cert.ReferenceIdeal.Term

end
-- ==== Proof.KernelValue.lean ====
/-
  What the kernel's program leaves in its result buffer, as a function of the launch contents of its six arguments.
  The run's last boundary holds the result array at what the second region's write-backs leave: `affine` of the four
  arrays that region found.  Those are: the aggregated array, which the host stretch between the regions makes by summing
  the first region's message array into destination rows from zeros; the node features, untouched since launch; the
  transposed matrix; the bias as a 1 × 96 row.  The message array is `scaled` of the two arrays the first region found,
  which the first host stretch makes: each edge's gathered source features, and (edge weight × gathered source rank) as a
  column.  Composed, this is the reference's result in the kernel's arrangement, hence the reference's result.
-/
import proofs.«112134_j35545149341818_1_alg».proof.Proof.Gen.KernelIdeal.Frame
import proofs.«112134_j35545149341818_1_alg».proof.Proof.MessageRegion
import proofs.«112134_j35545149341818_1_alg».proof.Proof.UpdateRegion
import proofs.«112134_j35545149341818_1_alg».proof.Proof.RefAffine
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem Cert.Spec
open Cert.ReferenceIdeal.Term (sources destinations wrapped column wide sourceRows sourceRanks summed)

variable (m : (ℓ : Loc nD τ sig) → Buf (Elt Ideal) ℓ) (ρ : Dev nD → PrngReg)

/-! ## The first host stretch: what the first region finds -/

theorem feats_eq (c : Dev nD) :
    Messages.feats (V1 m ρ) c = sourceRows (m ((c : Thread nD τ).loc main_arg0)) (m ((c : Thread nD τ).loc main_arg1)) := by
  show StableHlo.after hostOps0 (W0 m ρ c) (Proc.devRef .tc main_v10) = _
  after_results_simp <;> rfl

theorem scales_eq (c : Dev nD) :
    Messages.scales (V1 m ρ) c
      = shapeCast S800000x1 (mulf (m ((c : Thread nD τ).loc main_arg2)) (sourceRanks (m ((c : Thread nD τ).loc main_arg3)) (m ((c : Thread nD τ).loc main_arg1)))) shapeCasts_S800000_S800000x1 := by
  show StableHlo.after hostOps0 (W0 m ρ c) (Proc.devRef .tc main_v19) = _
  after_results_simp <;> rfl

/-! ## The boundary after the first region -/

theorem W2_messages (c : Dev nD) :
    W2 m ρ c (Proc.devRef .tc main_v20)
      = scaled (sourceRows (m ((c : Thread nD τ).loc main_arg0)) (m ((c : Thread nD τ).loc main_arg1)))
          (shapeCast S800000x1 (mulf (m ((c : Thread nD τ).loc main_arg2)) (sourceRanks (m ((c : Thread nD τ).loc main_arg3)) (m ((c : Thread nD τ).loc main_arg1)))) shapeCasts_S800000_S800000x1) :=
  (W2_arr m ρ c 2).trans ((Messages.messages (V1 m ρ) c).trans (by rw [feats_eq, scales_eq]))

theorem W2_destinations (c : Dev nD) : W2 m ρ c (Proc.devRef .tc main_v3) = destinations (m ((c : Thread nD τ).loc main_arg1)) := by
  refine (W2_of_ne m ρ c main_v3 (by decide)).trans ?_
  show StableHlo.after hostOps0 (W0 m ρ c) (Proc.devRef .tc main_v3) = _
  after_results_simp <;> rfl

theorem W2_nodes (c : Dev nD) : W2 m ρ c (Proc.devRef .tc main_arg0) = m ((c : Thread nD τ).loc main_arg0) := by
  refine (W2_of_ne m ρ c main_arg0 (by decide)).trans ?_
  show StableHlo.after hostOps0 (W0 m ρ c) (Proc.devRef .tc main_arg0) = _
  after_results_simp <;> rfl

theorem W2_matrix (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results_simp <;> rfl

theorem W2_biasVec (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results_simp <;> rfl

/-! ## The second host stretch: what the second region finds -/

theorem aggr_eq (c : Dev nD) :
    Update.aggr (V3 m ρ) c
      = summed (scaled (sourceRows (m ((c : Thread nD τ).loc main_arg0)) (m ((c : Thread nD τ).loc main_arg1)))
          (shapeCast S800000x1 (mulf (m ((c : Thread nD τ).loc main_arg2)) (sourceRanks (m ((c : Thread nD τ).loc main_arg3)) (m ((c : Thread nD τ).loc main_arg1)))) shapeCasts_S800000_S800000x1))
          (m ((c : Thread nD τ).loc main_arg1)) := by
  show StableHlo.after hostOps1 (W2 m ρ c) (Proc.devRef .tc main_v23) = _
  after_results_simp
  rw [W2_destinations m ρ c, W2_messages m ρ c]
  rfl

theorem nodes_eq (c : Dev nD) : Update.nodes (V3 m ρ) c = m ((c : Thread nD τ).loc main_arg0) := by
  show StableHlo.after hostOps1 (W2 m ρ c) (Proc.devRef .tc main_arg0) = _
  after_results_simp
  exact W2_nodes m ρ c

theorem weights_eq (c : Dev nD) :
    Update.weights (V3 m ρ) c = transpose S96x96 [1, 0] (m ((c : Thread nD τ).loc main_arg4)) transposes_S96x96_S96x96_1_0 := by
  show StableHlo.after hostOps1 (W2 m ρ c) (Proc.devRef .tc main_v24) = _
  after_results_simp
  rw [W2_matrix m ρ c]

theorem bias_eq (c : Dev nD) :
    Update.bias (V3 m ρ) c = shapeCast S1x96 (m ((c : Thread nD τ).loc main_arg5)) shapeCasts_S96_S1x96 := by
  show StableHlo.after hostOps1 (W2 m ρ c) (Proc.devRef .tc main_v25) = _
  after_results_simp
  rw [W2_biasVec m ρ c]
  rfl

/-! ## The result buffer -/

/-- At the run's last boundary the result buffer holds the reference's result of the launch arguments. -/
theorem value (c : Dev nD) :
    W4 m ρ c (Proc.devRef .tc main_v26)
      = Cert.ReferenceIdeal.Term.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W4_arr m ρ c 4).trans ((Update.result (V3 m ρ) c).trans ?_)
  rw [aggr_eq, nodes_eq, weights_eq, bias_eq]
  exact (Cert.ReferenceIdeal.Term.result_eq_affine _ _ _ _ _ _ shapeCasts_S800000_S800000x1 shapeCasts_S96_S1x96).symm

end Cert.KernelIdeal.Whole

end
-- ==== Proof.lean ====
/-
  A graph layer with additive aggregation, over 50000 nodes with 96 features and 800000 weighted edges.  Every edge
  sends to its destination its source's feature row scaled by the edge's weight and by the source's rank; every node
  adds the messages it receives to its own features, and the sum goes through one linear map with a bias.

  The kernel's program and the reference do the same gathers (a negative source counted from the end), the same
  scatter-sum into destination rows from zeros, and the same transpose of the 96 × 96 matrix.  They differ in two
  arrangements.  The kernel forms (edge weight × rank) first, as a column, and multiplies the gathered features by it
  in a first tiled region of 80 row blocks; the reference multiplies the weight by the features first and by the rank
  after: equal on the extended reals because their product is commutative and associative, infinities included.  The
  kernel's second tiled region, 5 row blocks, adds the aggregate to the features, narrows both factors to the short
  float format (the identity on the extended reals), multiplies by the whole transposed matrix from a zero accumulator
  and adds the bias as a 1 × 96 row; the reference does one whole product and adds the bias broadcast twice: both are,
  entry by entry, the same 96-term row sum plus the same bias entry.  No step needs the inputs to be finite.

  The three frames: the two kernel programs' are the generated ones; the reference's is its run with the value dropped.
  The idealization rewrote nothing, so there is nothing to preserve.  For the value claim the common result is the
  reference's result of the kernel's arguments: the kernel's run ends with its result buffer at the last segment
  boundary's contents, which is that function of the launch arguments; the reference's run ends at the same function of
  its own arguments, which agree with the kernel's.
-/
import proofs.«112134_j35545149341818_1_alg».proof.Defs
import proofs.«112134_j35545149341818_1_alg».proof.Proof.Gen.Kernel
import proofs.«112134_j35545149341818_1_alg».proof.Proof.Gen.Kernel.Frame
import proofs.«112134_j35545149341818_1_alg».proof.Proof.Gen.KernelIdeal
import proofs.«112134_j35545149341818_1_alg».proof.Proof.Gen.KernelIdeal.Frame
import proofs.«112134_j35545149341818_1_alg».proof.Proof.Gen.ReferenceIdeal
import proofs.«112134_j35545149341818_1_alg».proof.Proof.Gen.ReferenceIdeal.Run
import proofs.«112134_j35545149341818_1_alg».proof.Proof.Gen.Pre_finite_inputs
import proofs.«112134_j35545149341818_1_alg».proof.Proof.KernelRun
import proofs.«112134_j35545149341818_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result of the (agreeing) arguments. -/
theorem algebraic : Cert.algebraic_KernelIdeal_ReferenceIdeal := by
  intro m ρ m' ρ' _ hagree
  refine ⟨fun c => Cert.ReferenceIdeal.Term.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Whole.value m ρ c), (h c).2⟩)
      (Cert.KernelIdeal.RunNamed.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
